-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S8192_S_d0 : S8192.ReducesTo [0] S_

variable [Facts₀]

class Facts : Prop extends Facts₀ where

variable [Facts]
-- ==== Proof.BodyCases.lean ====
/-
  What each control case of the kernel body leaves in the one-entry output block, as a value of the body's arithmetic.

  The body at a grid point: at the first point it stores the zero block; it then loads the two 512×1024 input blocks and the
  output block, stores "output block + this tile's sum", and at the last point loads that back and stores it times `2⁻¹³`.
  So the first point leaves `0 + tile`, a middle point `carried + tile`, and the last point `(carried + tile) · 2⁻¹³`, where the
  arithmetic is the payload functions of the body (the second store's and the third store's) applied to the blocks loaded.
-/
import proofs.«140137_j35785667510424_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 access, as the constant function. -/
theorem hz : (![0, 0] : Fin 2 → Nat) = fun _ => 0 := funext fun a => by fin_cases a <;> rfl

/-- The first point: the zero block is stored, read back, and "zero block + tile sum" stored over it. -/
theorem out_first (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc0 : cond0_0 i) (hc1 : ¬cond0_1 i) (x0 x1 : Vec F S512x1024 .f32) :
    out0_A_2 c i a1 h1 a2 h2 a3 h3 hc0 hc1 x0 x1 = k0_pay2 x0 x1 (k0_pay1 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x1024) hz]

/-- A middle point: the carried block is read and "carried + tile sum" stored over it. -/
theorem out_middle (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc0 : ¬cond0_0 i) (hc1 : ¬cond0_1 i) (x0 x1 : Vec F S512x1024 .f32) (xo : Vec F S1x1 .f32) :
    out0_B_2 c i a1 h1 a2 h2 a3 h3 hc0 hc1 x0 x1 xo = k0_pay2 x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero (S := S1x1) hz]
  simp only [View.readAt_eq_ld, h1.read_unread, h2.read_unread, h3.read_unread, View.ld_unit_zero (S := S512x1024) hz,
    View.ld_unit_zero (S := S1x1) hz]

/-- The last point: "carried + tile sum" is stored, read back, and stored again times the final scale. -/
theorem out_last (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc0 : ¬cond0_0 i) (hc1 : cond0_1 i) (x0 x1 : Vec F S512x1024 .f32) (xo : Vec F S1x1 .f32) :
    out0_C_2 c i a1 h1 a2 h2 a3 h3 hc0 hc1 x0 x1 xo = k0_pay3 (k0_pay2 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S512x1024) hz,
    View.ld_unit_zero (S := S1x1) hz]

end Cert.KernelIdeal.Pieces

end
-- ==== Proof.RowCosine.lean ====
/-
  The mathematics both programs compute, over the extended reals, free of either program's text.

  For a row `x` of 1024 entries its floored norm is `max (√(∑ x_d²)) ε` with `ε` the f32 word for 1e-12; the cosine term of
  two rows `q`, `p` is `∑_d (q_d / ‖q‖) · (p_d / ‖p‖)`; the mean over 8192 rows divides the sum of the rows' terms by 8192.
  A sweep that walks the rows in 16 tiles of 512, adds the tiles' sums one after the other and multiplies by the dyadic
  `2⁻¹³` at the end computes the same extended real: the tiles partition the rows (row `512·t + r` is row `r` of tile `t`),
  a finite sum may be regrouped, and dividing by 8192 IS multiplying by `1/8192 = 2⁻¹³`.
-/
import Idealize.ShloMosaic.PureOps.Ideal
import Idealize.ShloMosaic.PureOps.Ideal.Laws
import Mathlib.Algebra.BigOperators.Fin

noncomputable section

namespace Cert.MeanCosine

open Idealize.ShloMosaic

/-- The f32 word `0x46000000` is the real 8192. -/
theorem ofBits_8192 : Ideal.ofBits .f32 0x46000000#32 = ((8192 : ℝ) : EReal) := by
  simp [Ideal.ofBits, Ideal.ieee, -EReal.coe_mul]; norm_num

/-- The f32 word `0x39000000` is the dyadic `2⁻¹³ = 1/8192`. -/
theorem ofBits_inv_8192 : Ideal.ofBits .f32 0x39000000#32 = ((1 / 8192 : ℝ) : EReal) := by
  simp [Ideal.ofBits, Ideal.ieee, -EReal.coe_mul]; norm_num

/-- The norm of a row, floored at the word for 1e-12. -/
def rowNorm (x : Fin 1024 → EReal) : EReal :=
  max (Ideal.sqrt (∑ d, x d * x d)) (Ideal.ofBits .f32 0x2B8CBCCC#32)

/-- The cosine term of two rows: the sum over the lanes of the products of the normalized entries. -/
def rowCos (q p : Fin 1024 → EReal) : EReal :=
  ∑ d, Ideal.div (q d) (rowNorm q) * Ideal.div (p d) (rowNorm p)

/-- The sum of the cosine terms of the 512 rows of one tile. -/
def tileSum (q p : Fin 512 → Fin 1024 → EReal) : EReal :=
  ∑ r, rowCos (q r) (p r)

/-- The mean of the cosine terms over all 8192 rows. -/
def meanCos (Q P : Fin 8192 → Fin 1024 → EReal) : EReal :=
  Ideal.div (∑ j, rowCos (Q j) (P j)) (Ideal.ofBits .f32 0x46000000#32)

/-- Row `r` of tile `t` is row `512·t + r`. -/
def rowOf (t : Fin 16) (r : Fin 512) : Fin 8192 :=
  ⟨512 * t.val + r.val, by have := t.isLt; have := r.isLt; omega⟩

/-- The 16 tiles of 512 rows partition the 8192 rows: a sum over the rows is the sum over the tiles of the sums inside. -/
theorem sum_tiles (g : Fin 8192 → EReal) : ∑ t : Fin 16, ∑ r : Fin 512, g (rowOf t r) = ∑ j : Fin 8192, g j := by
  rw [← Fintype.sum_prod_type']
  refine Fintype.sum_equiv (finProdFinEquiv (m := 16) (n := 512)) _ _ fun x => congrArg g (Fin.ext ?_)
  show 512 * x.1.val + x.2.val = x.2.val + 512 * x.1.val
  omega

/-- The tiled sweep's value — the tiles' sums added up, times `2⁻¹³` — is the mean. -/
theorem tiled_eq_mean (Q P : Fin 8192 → Fin 1024 → EReal) :
    (∑ t : Fin 16, tileSum (fun r => Q (rowOf t r)) (fun r => P (rowOf t r))) * Ideal.ofBits .f32 0x39000000#32
      = meanCos Q P := by
  unfold tileSum meanCos
  rw [sum_tiles (fun j => rowCos (Q j) (P j)), ofBits_8192, Ideal.div_coe (by norm_num), ofBits_inv_8192]

end Cert.MeanCosine

end
-- ==== Proof.TileReads.lean ====
/-
  The tile arithmetic of the kernel body read index by index, over the extended reals.

  One grid point works on a 512×1024 tile of each input. A sum along the lanes of the tile at row `r` is `∑_d v(r, d)`; a
  vector of 512 row values viewed as a 512×1 column keeps entry `r` at `(r, 0)`; a column broadcast over the lanes reads
  `(r, d)` at `(r, 0)`; a sum of the column down its rows is `∑_r v(r, 0)`; and a one-entry vector viewed as a 1×1 block keeps
  its entry. Composed as the body composes them, the block the body stores is "the block it loaded + the tile's sum of
  cosine terms".
-/
import Idealize.ShloMosaic.PureOps.Ideal
import Idealize.ShloMosaic.PureOps.Ideal.Laws
import Idealize.ShloMosaic.Lib.ValueIdx
import Idealize.ShloMosaic.Lib.Pipeline.Value
import proofs.«140137_j35785667510424_1_alg».proof.Proof.RowCosine

noncomputable section

namespace Cert.MeanCosine

open Idealize.ShloMosaic Idealize.ShloMosaic.ValueIdx

/-- A tile of 512 rows and 1024 lanes; its column of row values; the row values as a vector; one entry; a 1×1 block. -/
abbrev STile : Shape := ⟨2, ![512, 1024]⟩
abbrev SCol : Shape := ⟨2, ![512, 1]⟩
abbrev SRows : Shape := ⟨1, ![512]⟩
abbrev SOne : Shape := ⟨1, ![1]⟩
abbrev SCell : Shape := ⟨2, ![1, 1]⟩

/-- The lane sum of a tile at row `r` is the sum over the 1024 lanes of that row. -/
theorem laneSum_apply (v : FVec Ideal STile .f32) (h : STile.Reduces [1] SRows) (hφ : FKind.Formats .f32)
    (hacc : (0x00000000#32 : BitVec 32) = FKind.add.neutral .f32 hφ) (r : Fin 512) :
    multiReduction .add [1] SRows v 0x00000000#32 h hφ hacc (ix1 r) = ∑ d : Fin 1024, v (ix2 r d) :=
  (Ideal.multiReduction_add_single v _ h hφ hacc (ix1 r)).trans
    (Finset.sum_congr rfl fun d _ => congrArg v (funext fun a => Fin.ext (by
      match a with
      | ⟨0, _⟩ => rfl
      | ⟨1, _⟩ => rfl)))

/-- The row values viewed as a column: entry `(r, 0)` is entry `r`. -/
theorem col_apply {α : Type} (v : SRows.Idx → α) (h : SRows.ShapeCasts SCol) (r : Fin 512) (z : Fin 1) :
    shapeCast SCol v h (ix2 r z) = v (ix1 r) :=
  shapeCast_apply v h (ix2 r z) (ix1 r) (by
    rw [Shape.rowMajor_val_one, Shape.rowMajor_val_two]
    show r.val = r.val * 1 + z.val
    have := z.isLt; omega)

/-- A column broadcast over the lanes: entry `(r, d)` is the column's entry `(r, 0)`. -/
theorem bcast_apply {α : Type} (v : SCol.Idx → α) (h : SCol.Broadcasts STile) (r : Fin 512) (d : Fin 1024) :
    broadcastTo STile v h (ix2 r d) = v (ix2 r 0) :=
  broadcastTo_apply v h (ix2 r d) (ix2 r 0) (fun a => by
    match a with
    | ⟨0, _⟩ => show r.val = if (512 : Nat) = 1 then 0 else r.val; rw [if_neg (by decide)]
    | ⟨1, _⟩ => show 0 = if (1 : Nat) = 1 then 0 else d.val; rw [if_pos rfl])

/-- The sum of a column down its rows, at its one index, is the sum over the 512 rows. -/
theorem colSum_apply (v : FVec Ideal SCol .f32) (h : SCol.Reduces [0] SOne) (hφ : FKind.Formats .f32)
    (hacc : (0x00000000#32 : BitVec 32) = FKind.add.neutral .f32 hφ) (k : SOne.Idx) :
    multiReduction .add [0] SOne v 0x00000000#32 h hφ hacc k = ∑ r : Fin 512, v (ix2 r 0) :=
  (Ideal.multiReduction_add_single v _ h hφ hacc k).trans
    (Finset.sum_congr rfl fun r _ => congrArg v (funext fun a => Fin.ext (by
      match a with
      | ⟨0, _⟩ => rfl
      | ⟨1, _⟩ => exact Nat.lt_one_iff.mp (k 0).isLt)))

/-- The floored norm of row `r` of a tile, as the body computes it: the lane sum of the squares, as a column, its square
    root, floored at the splat of the word for 1e-12. -/
theorem normCol_apply (x : FVec Ideal STile .f32) (hr : STile.Reduces [1] SRows) (hc : SRows.ShapeCasts SCol)
    (hφ : FKind.Formats .f32) (hacc : (0x00000000#32 : BitVec 32) = FKind.add.neutral .f32 hφ) (r : Fin 512) (z : Fin 1) :
    maximumf (sqrt (shapeCast SCol (multiReduction .add [1] SRows (mulf x x) 0x00000000#32 hr hφ hacc) hc))
        (broadcast SCol (Scalar.ofBits .f32 0x2B8CBCCC#32)) (ix2 r z)
      = rowNorm (fun d => x (ix2 r d)) := by
  show max (Ideal.sqrt (shapeCast SCol (multiReduction .add [1] SRows (mulf x x) 0x00000000#32 hr hφ hacc) hc (ix2 r z)))
      (Ideal.ofBits .f32 0x2B8CBCCC#32) = _
  rw [col_apply, laneSum_apply]
  rfl

/-- The block the body stores at a grid point: entry by entry, the block it loaded plus the sum over the tile's rows of
    the rows' cosine terms. -/
theorem tileBody_apply (x0 x1 : FVec Ideal STile .f32) (acc : FVec Ideal SCell .f32)
    (hr : STile.Reduces [1] SRows) (hc : SRows.ShapeCasts SCol) (hb : SCol.Broadcasts STile) (hr0 : SCol.Reduces [0] SOne)
    (hc1 : SOne.ShapeCasts SCell) (hcc : SCell.ShapeCasts SCell) (hφ : FKind.Formats .f32)
    (hacc : (0x00000000#32 : BitVec 32) = FKind.add.neutral .f32 hφ) (j : SCell.Idx) :
    addf (shapeCast SCell acc hcc)
      (shapeCast SCell
        (multiReduction .add [0] SOne
          (shapeCast SCol
            (multiReduction .add [1] SRows
              (mulf
                (divf x0 (broadcastTo STile
                  (maximumf (sqrt (shapeCast SCol (multiReduction .add [1] SRows (mulf x0 x0) 0x00000000#32 hr hφ hacc) hc))
                    (broadcast SCol (Scalar.ofBits .f32 0x2B8CBCCC#32))) hb))
                (divf x1 (broadcastTo STile
                  (maximumf (sqrt (shapeCast SCol (multiReduction .add [1] SRows (mulf x1 x1) 0x00000000#32 hr hφ hacc) hc))
                    (broadcast SCol (Scalar.ofBits .f32 0x2B8CBCCC#32))) hb)))
              0x00000000#32 hr hφ hacc) hc)
          0x00000000#32 hr0 hφ hacc) hc1) j
      = acc j + tileSum (fun r d => x0 (ix2 r d)) (fun r d => x1 (ix2 r d)) := by
  rw [addf_apply, shapeCast_self]
  refine (congrArg (acc j + ·) ((shapeCast_addUnit_apply ![1] _ hc1 j).trans (colSum_apply _ hr0 hφ hacc _))).trans ?_
  unfold tileSum rowCos
  refine congrArg (acc j + ·) (Finset.sum_congr rfl fun r _ => ?_)
  rw [col_apply, laneSum_apply]
  refine Finset.sum_congr rfl fun d _ => ?_
  rw [mulf_apply, divf_apply, divf_apply, bcast_apply, bcast_apply, normCol_apply, normCol_apply]

end Cert.MeanCosine

end
-- ==== Proof.BodyArithmetic.lean ====
/-
  The three values the kernel body stores, at the extended reals, entry by entry of the 1×1 output block:
  the reset stores 0; the accumulation stores "the block loaded + this tile's sum of cosine terms"; the final scaling
  stores the block loaded times the word `0x39000000` (the dyadic `2⁻¹³`).
-/
import proofs.«140137_j35785667510424_1_alg».proof.Proof.Gen.KernelIdeal.Skeleton
import proofs.«140137_j35785667510424_1_alg».proof.Proof.TileReads

noncomputable section

namespace Cert.KernelIdeal.Arith

open Idealize.ShloMosaic Idealize.ShloMosaic.ValueIdx Cert.KernelIdeal Cert.KernelIdeal.Gen Cert.MeanCosine

/-- The reset's block is zero. -/
theorem reset_apply (j : S1x1.Idx) : k0_pay1 (F := Ideal) j = 0 :=
  Ideal.ofBits_zero_f32

/-- The accumulation's block: the block loaded plus the tile's sum over its 512 rows of the rows' cosine terms. -/
theorem accumulate_apply (x0 x1 : Vec Ideal S512x1024 .f32) (acc : Vec Ideal S1x1 .f32) (j : S1x1.Idx) :
    k0_pay2 (F := Ideal) x0 x1 acc j = acc j + tileSum (fun r d => x0 (ix2 r d)) (fun r d => x1 (ix2 r d)) :=
  tileBody_apply x0 x1 acc _ _ _ _ _ _ _ _ j

/-- The final scaling's block: the block loaded times `2⁻¹³`. -/
theorem scale_apply (v : Vec Ideal S1x1 .f32) (j : S1x1.Idx) :
    k0_pay3 (F := Ideal) v j = v j * Ideal.ofBits .f32 0x39000000#32 := by
  show shapeCast S1x1 v shapeCasts_S1x1_S1x1 j * Ideal.ofBits .f32 0x39000000#32 = _
  rw [shapeCast_self]

end Cert.KernelIdeal.Arith

end
-- ==== Proof.KernelValue.lean ====
/-
  What the idealized kernel leaves in its result, as a value.

  The output block is carried from grid point to grid point: after point `n` it holds the sum of the first `n + 1` tiles'
  sums, and after the last point (15) that sum times `2⁻¹³` (by induction on the point, over the three cases of the body).
  The block is written back once, after the last point, and it is the whole 1×1 result array; the reshape that follows the
  region turns that array into the scalar result.
-/
import proofs.«140137_j35785667510424_1_alg».proof.Proof.BodyCases
import proofs.«140137_j35785667510424_1_alg».proof.Proof.BodyArithmetic
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Pieces Cert.KernelIdeal.Arith Cert.MeanCosine
open Idealize.ShloMosaic.ValueIdx

variable (m : (ℓ : Loc nD τ sig) → Buf (Elt Ideal) ℓ) (ρ : Dev nD → PrngReg)

/-- The two input tiles at a grid point, at their literal type. -/
abbrev qblk (c : Dev nD) (t : Fin cfg0.N) : Vec Ideal S512x1024 .f32 := iblk m c 0 t
abbrev pblk (c : Dev nD) (t : Fin cfg0.N) : Vec Ideal S512x1024 .f32 := iblk m c 1 t

/-- The sum of the cosine terms of the rows of tile `n` (zero past the grid). -/
def tileAt (c : Dev nD) (n : ℕ) : EReal :=
  if h : n < cfg0.N then tileSum (fun r d => qblk m c ⟨n, h⟩ (ix2 r d)) (fun r d => pblk m c ⟨n, h⟩ (ix2 r d)) else 0

/-- The running sum of the tiles' sums through tile `n`. -/
def partialSum (c : Dev nD) (n : ℕ) : EReal := ∑ i ∈ Finset.range (n + 1), tileAt m c i

/-- The final scale, the word for `2⁻¹³`. -/
def scale : EReal := Ideal.ofBits .f32 0x39000000#32

theorem partialSum_zero (c : Dev nD) (h : 0 < cfg0.N) :
    partialSum m c 0 = tileSum (fun r d => qblk m c ⟨0, h⟩ (ix2 r d)) (fun r d => pblk m c ⟨0, h⟩ (ix2 r d)) := by
  unfold partialSum
  rw [Finset.sum_range_one]
  unfold tileAt
  rw [dif_pos h]

theorem partialSum_succ (c : Dev nD) (n : ℕ) (h : n + 1 < cfg0.N) :
    partialSum m c (n + 1)
      = partialSum m c n + tileSum (fun r d => qblk m c ⟨n + 1, h⟩ (ix2 r d)) (fun r d => pblk m c ⟨n + 1, h⟩ (ix2 r d)) := by
  unfold partialSum
  rw [Finset.sum_range_succ _ (n + 1)]
  refine congrArg (_ + ·) ?_
  unfold tileAt
  rw [dif_pos h]

/-- The carried block after point `n`: the running sum, scaled once the last point has run. -/
theorem outsAt_eq (c : Dev nD) : ∀ (n : ℕ) (h : n < cfg0.N),
    outsAt0 m c n h = fun _ => if n = 15 then partialSum m c n * scale else partialSum m c n
  | 0, h => by
    rw [outsAt0_A m c ⟨0, h⟩ rfl (by show ¬(0 : ℕ) % 16 = 15; decide), out_first]
    funext j
    refine (accumulate_apply (qblk m c ⟨0, h⟩) (pblk m c ⟨0, h⟩) _ j).trans ?_
    rw [reset_apply, zero_add, if_neg (by decide), partialSum_zero m c h]
  | n + 1, h => by
    have hN : cfg0.N = 16 := N_0
    have h0 : ¬(⟨n + 1, h⟩ : Fin cfg0.N).val % 16 = 0 := by dsimp only; omega
    have ih := outsAt_eq c n (Nat.lt_of_succ_lt h)
    rw [if_neg (by omega)] at ih
    by_cases h1 : (⟨n + 1, h⟩ : Fin cfg0.N).val % 16 = 15
    · rw [outsAt0_C m c ⟨n + 1, h⟩ h0 h1, out_last]
      funext j
      refine (scale_apply _ j).trans ?_
      refine (congrArg (· * Ideal.ofBits .f32 0x39000000#32)
        (accumulate_apply (qblk m c ⟨n + 1, h⟩) (pblk m c ⟨n + 1, h⟩) _ j)).trans ?_
      show (outsAt0 m c n _ j + _) * scale = if n + 1 = 15 then partialSum m c (n + 1) * scale else partialSum m c (n + 1)
      rw [ih, if_pos (by dsimp only at h1; omega), partialSum_succ m c n h]
    · rw [outsAt0_B m c ⟨n + 1, h⟩ h0 h1, out_middle]
      funext j
      refine (accumulate_apply (qblk m c ⟨n + 1, h⟩) (pblk m c ⟨n + 1, h⟩) _ j).trans ?_
      show outsAt0 m c n _ j + _ = if n + 1 = 15 then partialSum m c (n + 1) * scale else partialSum m c (n + 1)
      rw [ih, if_neg (by dsimp only at h1; omega), partialSum_succ m c n h]

/-- The result array's contents: the sum over all 16 tiles, scaled. -/
abbrev result (c : Dev nD) : Buf (Elt Ideal) ((c : Thread nD τ).loc main_v0) := fun _ => partialSum m c 15 * scale

/-- The one write-back, after point 15, writes it: the block at index (0, 0) of the 1×1 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq, if_pos (show t0_15.val = 15 from rfl)]
  have hz' : (fun a => win0_2.index t0_15 a * main_v0.ty.shape.size a) = fun _ => 0 := funext fun a => by fin_cases a <;> decide
  exact (Memref.read_access_unit_zero (Elt Ideal) main_v0 hz' (fun a => by rw [congrFun hz' a]; simp) (result m c)).symm

/-- So the result array ends holding it: point 15's block covers the array. -/
theorem final_v0 (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]
        omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 1 from by decide +kernel]
        omega⟩

/-- The reshape after the region reads the 1×1 array as the scalar. -/
theorem tail_eq (c : Dev nD) :
    Pipeline.afterTail₀ cfgs (dats m) 0 (V0 m) [hostOps1] c main_v1 = fun _ => partialSum m c 15 * scale := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final_v0 m c)
  funext i
  rw [e]
  rfl

end Cert.KernelIdeal.Value

end
-- ==== Proof.TileRows.lean ====
/-
  The kernel's value in terms of the argument arrays.

  The window of each input hands grid point `t` the block of rows `512·t … 512·t + 511` (block index `(t, 0)` of blocks of
  512×1024), so entry `(r, d)` of point `t`'s tile is entry `(512·t + r, d)` of the argument. The 16 tiles' sums therefore add up
  to the sum over all 8192 rows, and the scaled total is the mean of the rows' cosine terms.
-/
import proofs.«140137_j35785667510424_1_alg».proof.Proof.KernelValue

noncomputable section

open Idealize.ShloMosaic Idealize.ShloMosaic.TcCoe Idealize.SL.Sem

namespace Cert.KernelIdeal.Value

open Cert.KernelIdeal Cert.KernelIdeal.Gen Cert.MeanCosine
open Idealize.ShloMosaic.ValueIdx

variable (m : (ℓ : Loc nD τ sig) → Buf (Elt Ideal) ℓ) (ρ : Dev nD → PrngReg)

/-- Both input windows sit at block index `(t, 0)` at grid point `t`. -/
theorem index_q : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_p : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- A grid point as a tile number below 16. -/
def tileIx (t : Fin cfg0.N) : Fin 16 := ⟨t.val, lt_of_lt_of_eq t.isLt N_0⟩

/-- The arguments as rows. -/
abbrev qrows (c : Dev nD) : Fin 8192 → Fin 1024 → EReal := fun j d => m ((c : Thread nD τ).loc main_arg0) (ix2 j d)
abbrev prows (c : Dev nD) : Fin 8192 → Fin 1024 → EReal := fun j d => m ((c : Thread nD τ).loc main_arg1) (ix2 j d)

/-- Entry `(r, d)` of point `t`'s tile of the first input is entry `(512·t + r, d)` of the first argument. -/
theorem qblk_apply (c : Dev nD) (t : Fin cfg0.N) (r : Fin 512) (d : Fin 1024) :
    qblk m c t (ix2 r d) = qrows m c (rowOf (tileIx t) r) d := by
  show iblk m c 0 t (ix2 r d) = _
  unfold iblk
  rw [View.read_apply]
  show V m c main_arg0 _ = V m c main_arg0 (ix2 (rowOf (tileIx t) r) d)
  refine congrArg (V m c main_arg0) (funext fun a => Fin.ext ?_)
  match a with
  | ⟨0, _⟩ =>
    show win0_0.index t 0 * 512 + 1 * r.val = 512 * t.val + r.val
    rw [(index_q t).1]; omega
  | ⟨1, _⟩ =>
    show win0_0.index t 1 * 1024 + 1 * d.val = d.val
    rw [(index_q t).2]; omega

/-- The same for the second input. -/
theorem pblk_apply (c : Dev nD) (t : Fin cfg0.N) (r : Fin 512) (d : Fin 1024) :
    pblk m c t (ix2 r d) = prows m c (rowOf (tileIx t) r) d := by
  show iblk m c 1 t (ix2 r d) = _
  unfold iblk
  rw [View.read_apply]
  show V m c main_arg1 _ = V m c main_arg1 (ix2 (rowOf (tileIx t) r) d)
  refine congrArg (V m c main_arg1) (funext fun a => Fin.ext ?_)
  match a with
  | ⟨0, _⟩ =>
    show win0_1.index t 0 * 512 + 1 * r.val = 512 * t.val + r.val
    rw [(index_p t).1]; omega
  | ⟨1, _⟩ =>
    show win0_1.index t 1 * 1024 + 1 * d.val = d.val
    rw [(index_p t).2]; omega

/-- The scaled total of the 16 tiles' sums is the mean of the rows' cosine terms of the two arguments. -/
theorem total_eq (c : Dev nD) : partialSum m c 15 * scale = meanCos (qrows m c) (prows m c) := by
  rw [← tiled_eq_mean]
  unfold scale
  refine congrArg (· * Ideal.ofBits .f32 0x39000000#32) ?_
  show ∑ i ∈ Finset.range 16, tileAt m c i = _
  rw [Finset.sum_range]
  refine Finset.sum_congr rfl fun t _ => ?_
  have ht : t.val < cfg0.N := lt_of_lt_of_eq t.isLt N_0.symm
  unfold tileAt
  rw [dif_pos ht]
  have eq : ∀ r d, qblk m c ⟨t.val, ht⟩ (ix2 r d) = qrows m c (rowOf t r) d := fun r d => qblk_apply m c ⟨t.val, ht⟩ r d
  have ep : ∀ r d, pblk m c ⟨t.val, ht⟩ (ix2 r d) = prows m c (rowOf t r) d := fun r d => pblk_apply m c ⟨t.val, ht⟩ r d
  simp only [eq, ep]

/-- The idealized kernel's run, read: the scalar result ends at the mean of the rows' cosine terms of the two arguments,
    and the arguments end unchanged. The result is the reshape, after the region, of the region's 1×1 array. -/
theorem run : θ_run defs (onTc (τ := τ) (main (F := Ideal))) ⟨m, fun _ => 0, ρ⟩ fun r => ∀ c : Dev nD,
      r.2.mem ((c.tc : Thread nD τ).loc main_v1) = (fun _ => meanCos (qrows m c) (prows m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans
        ((tail_eq m c).trans (funext fun _ => total_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.ReferenceValue.lean ====
/-
  What the idealized reference computes, as a value: the mean over the 8192 rows of the rows' cosine terms.

  The reference normalizes each input by its rows' floored norms (the square root of the row's sum of squares, floored at
  the word for 1e-12, broadcast over the lanes), multiplies the two normalized arrays, sums along the lanes, sums the 8192
  row values and divides by 8192; each host sum starts from the word for 0.
-/
import proofs.«140137_j35785667510424_1_alg».proof.Proof.Gen.ReferenceIdeal.Read
import proofs.«140137_j35785667510424_1_alg».proof.Proof.RowCosine
import Idealize.ShloMosaic.Lib.ValueIdx
import Idealize.ShloMosaic.Lib.ValueIdxRank1

noncomputable section

namespace Cert.ReferenceIdeal.RefValue

open Idealize.ShloMosaic Idealize.ShloMosaic.ValueIdx Cert.ReferenceIdeal Cert.ReferenceIdeal.Read Cert.MeanCosine

/-- An 8192×1024 array as its rows. -/
abbrev rows (X : (⟨S8192x1024, .f32⟩ : BufTy).Contents (Elt Ideal)) : Fin 8192 → Fin 1024 → EReal :=
  fun j d => X (ix2 j d)

/-- The first input's floored norms, as a column: entry `(j, 0)` is the floored norm of row `j`. -/
theorem qnorm_apply (X : (⟨S8192x1024, .f32⟩ : BufTy).Contents (Elt Ideal)) (i : S8192x1.Idx) :
    val_main_v2 (F := Ideal) X i = rowNorm (rows X (i 0)) := by
  rw [val_main_v2_apply, val_main_v0_apply, val_main_call0_v2_apply, val_main_call0_v1_apply, val_main_v1_apply,
    val_main_cst_apply, val_main_call0_cst_apply]
  have e : ∀ k : Fin 1024, idx_main_call0_v1 (idx_main_call0_v2 i) k = ix2 (i 0) k := fun k =>
    funext fun a => Fin.ext (by match a with | ⟨0, _⟩ => rfl | ⟨1, _⟩ => rfl)
  simp only [val_main_call0_v0_apply, e, Ideal.maximumf_def, Ideal.hostUnary_sqrt_def, Ideal.mulf_def, Ideal.ofBits_def,
    Ideal.ofBits_zero_f32, zero_add]
  rfl

/-- The second input's floored norms likewise. -/
theorem pnorm_apply (X : (⟨S8192x1024, .f32⟩ : BufTy).Contents (Elt Ideal)) (i : S8192x1.Idx) :
    val_main_v7 (F := Ideal) X i = rowNorm (rows X (i 0)) := by
  rw [val_main_v7_apply, val_main_v5_apply, val_main_call1_v2_apply, val_main_call1_v1_apply, val_main_v6_apply,
    val_main_cst_0_apply, val_main_call1_cst_apply]
  have e : ∀ k : Fin 1024, idx_main_call1_v1 (idx_main_call1_v2 i) k = ix2 (i 0) k := fun k =>
    funext fun a => Fin.ext (by match a with | ⟨0, _⟩ => rfl | ⟨1, _⟩ => rfl)
  simp only [val_main_call1_v0_apply, e, Ideal.maximumf_def, Ideal.hostUnary_sqrt_def, Ideal.mulf_def, Ideal.ofBits_def,
    Ideal.ofBits_zero_f32, zero_add]
  rfl

/-- The product of the normalized arrays at `(j, d)`. -/
theorem prod_apply (X0 X1 : (⟨S8192x1024, .f32⟩ : BufTy).Contents (Elt Ideal)) (j : Fin 8192) (d : Fin 1024) :
    val_main_v10 (F := Ideal) X0 X1 (ix2 j d)
      = Ideal.div (rows X0 j d) (rowNorm (rows X0 j)) * Ideal.div (rows X1 j d) (rowNorm (rows X1 j)) := by
  rw [val_main_v10_apply, val_main_v4_apply, val_main_v9_apply, val_main_v3_apply, val_main_v8_apply, qnorm_apply, pnorm_apply]
  rfl

/-- The lane sums: row `j`'s cosine term. -/
theorem rowCos_apply (X0 X1 : (⟨S8192x1024, .f32⟩ : BufTy).Contents (Elt Ideal)) (j : Fin 8192) :
    val_main_v11 (F := Ideal) X0 X1 (ix1 j) = rowCos (rows X0 j) (rows X1 j) := by
  rw [val_main_v11_apply, val_main_cst_1_apply]
  have e : ∀ k : Fin 1024, idx_main_v11 (ix1 j) k = ix2 j k := fun k =>
    funext fun a => Fin.ext (by match a with | ⟨0, _⟩ => rfl | ⟨1, _⟩ => rfl)
  simp only [e, prod_apply, Ideal.ofBits_def, Ideal.ofBits_zero_f32, zero_add]
  rfl

/-- The reference's result is the mean of the rows' cosine terms. -/
theorem mean_apply (X0 X1 : (⟨S8192x1024, .f32⟩ : BufTy).Contents (Elt Ideal)) (i : S_.Idx) :
    val_main_v13 (F := Ideal) X0 X1 i = meanCos (rows X0) (rows X1) := by
  rw [val_main_v13_apply, val_main_v12_apply, val_main_cst_2_apply, val_main_cst_3_apply]
  rw [← Equiv.sum_comp (idxEquiv1 (n := 8192)).symm]
  simp only [Ideal.hostDivf_def, Ideal.ofBits_def, Ideal.ofBits_zero_f32, zero_add]
  unfold meanCos
  refine congrArg (Ideal.div · _) (Finset.sum_congr rfl fun j _ => ?_)
  exact rowCos_apply X0 X1 j

end Cert.ReferenceIdeal.RefValue

end
-- ==== Proof.lean ====
/-
  The kernel computes the mean over 8192 rows of the cosine of the two inputs' rows, `mean_j ⟨q_j/‖q_j‖, p_j/‖p_j‖⟩` with each
  norm floored at the f32 word for 1e-12, and so does the reference; over the extended reals the two are one value.

  The kernel sweeps the rows in 16 tiles of 512: each grid point adds its tile's sum of row terms into a one-entry block
  carried across the grid (reset to 0 at the first point), the last point multiplies the block by `2⁻¹³`, the block is the
  whole 1×1 result of the region and the reshape after the region reads it as the scalar. The reference forms the 8192 row
  terms at once, sums them and divides by 8192. The tiles partition the rows (row `512·t + r` is row `r` of tile `t`), a finite
  sum of extended reals may be regrouped, the host sums' initial word is 0, and dividing by 8192 is multiplying by
  `1/8192 = 2⁻¹³` on every extended real; no other law is used, so the precondition is never opened.

  The ideal pass rewrote nothing, so the preservation claim is `True`. The three frames are the generated ones (the
  reference's is its run with the result dropped).
-/
import proofs.«140137_j35785667510424_1_alg».proof.Defs
import proofs.«140137_j35785667510424_1_alg».proof.Proof.Gen.Kernel
import proofs.«140137_j35785667510424_1_alg».proof.Proof.Gen.Kernel.Skeleton
import proofs.«140137_j35785667510424_1_alg».proof.Proof.Gen.Kernel.Launch
import proofs.«140137_j35785667510424_1_alg».proof.Proof.Gen.Kernel.Points
import proofs.«140137_j35785667510424_1_alg».proof.Proof.Gen.Kernel.Frame
import proofs.«140137_j35785667510424_1_alg».proof.Proof.Gen.KernelIdeal
import proofs.«140137_j35785667510424_1_alg».proof.Proof.Gen.KernelIdeal.Skeleton
import proofs.«140137_j35785667510424_1_alg».proof.Proof.Gen.KernelIdeal.Launch
import proofs.«140137_j35785667510424_1_alg».proof.Proof.Gen.KernelIdeal.Points
import proofs.«140137_j35785667510424_1_alg».proof.Proof.Gen.KernelIdeal.Frame
import proofs.«140137_j35785667510424_1_alg».proof.Proof.Gen.ReferenceIdeal
import proofs.«140137_j35785667510424_1_alg».proof.Proof.Gen.Pre_finite_inputs
import proofs.«140137_j35785667510424_1_alg».proof.Proof.Gen.ReferenceIdeal.Run
import proofs.«140137_j35785667510424_1_alg».proof.Proof.Gen.ReferenceIdeal.Read
import proofs.«140137_j35785667510424_1_alg».proof.Proof.TileRows
import proofs.«140137_j35785667510424_1_alg».proof.Proof.ReferenceValue
import Idealize.ShloMosaic.Adequacy
import Idealize.ShloMosaic.Init

noncomputable section

namespace Cert.Proof

open Idealize.ShloMosaic Idealize.SL.Sem Cert.MeanCosine

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean of the rows' cosine terms of the (agreeing) arguments. -/
theorem algebraic : Cert.algebraic_KernelIdeal_ReferenceIdeal := by
  intro m ρ m' ρ' _ hagree
  refine ⟨fun c => fun _ => meanCos (Cert.KernelIdeal.Value.qrows m c) (Cert.KernelIdeal.Value.prows m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext i
  exact Cert.ReferenceIdeal.RefValue.mean_apply _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
